-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S64x128 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S128x64 .f32) (main_arg3 : FVec F S128 .f32) (main_arg4 : FVec F S128x64 .f32) (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 62
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .f32⟩
  | .hbm, ⟨37, _⟩ => ⟨S_, .f32⟩
  | .hbm, ⟨38, _⟩ => ⟨S100000x64, .f32⟩
  | .hbm, ⟨39, _⟩ => ⟨S1000000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x128, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x128, .f32⟩
  | .hbm, ⟨54, _⟩ => ⟨S_, .f32⟩
  | .hbm, ⟨55, _⟩ => ⟨S100000x128, .f32⟩
  | .hbm, ⟨56, _⟩ => ⟨S1000000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128, .f32⟩
  | .local _ .vmem, ⟨6, _⟩ => ⟨S128x64, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S64x128, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  transposes_S128x64_p1_0_S64x128 : S128x64.Transposes [1, 0] S64x128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  transposes_S64x128_p1_0_S128x64 : S64x128.Transposes [1, 0] S128x64
  shapeCasts_S64_S1x64 : S64.ShapeCasts S1x64
  broadcasts_S1x64_S5000x64 : S1x64.Broadcasts S5000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S1x1000000, .i32⟩
  | .hbm, ⟨13, _⟩ => ⟨S1000000, .i32⟩
  | .hbm, ⟨14, _⟩ => ⟨S1x1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S64x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x128, .f32⟩
  | .hbm, ⟨64, _⟩ => ⟨S_, .f32⟩
  | .hbm, ⟨65, _⟩ => ⟨S100000x128, .f32⟩
  | .hbm, ⟨66, _⟩ => ⟨S1000000x1, .i32⟩
  | .hbm, ⟨67, _⟩ => ⟨S100000x128, .f32⟩
  | .hbm, ⟨68, _⟩ => ⟨S_, .f32⟩
  | .hbm, ⟨69, _⟩ => ⟨S1000000, .f32⟩
  | .hbm, ⟨70, _⟩ => ⟨S_, .f32⟩
  | .hbm, ⟨71, _⟩ => ⟨S100000, .f32⟩
  | .hbm, ⟨72, _⟩ => ⟨S1000000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S128x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S128x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«161688_j56075093017243_1_alg».proof.Proof.LibMatmul
import proofs.«161688_j56075093017243_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.LibSageLayer.lean ====
/-
  The dense half of a mean-aggregating graph layer, read as one whole-array function (a general lemma: nothing here
  depends on a program; any sizes).

  For a node's own features x : [A, K], the mean of its neighbours' features n : [A, K], two weight matrices
  ws, wn : [C, K] (stored output-major, so they are used transposed) and two biases bs, bn : [C], the layer is
      max(((x·wsᵀ + bs) + n·wnᵀ) + bn, 0),
  entry (a, c) being  max(((Σ_k x[a,k]·ws[c,k] + bs[c]) + Σ_k n[a,k]·wn[c,k]) + bn[c], 0),  and the projection that
  follows the last layer is h·woᵀ + bo, entry (a, c) being Σ_k h[a,k]·wo[c,k] + bo[c].
  Two spellings compute each at the ideal values: the matrix unit's (the left operand as it is handed over, the weight
  narrowed to bf16 — the identity on extended reals — and transposed, a product into a zero accumulator, the bias as one
  row broadcast down the rows, the rectifier against a scalar splat) and the host's (the weight transposed, a
  dot_general, the bias through two broadcast_in_dim, the rectifier against a broadcast scalar constant). Both add the
  same four terms in the same grouping and sum the same products in the same order over k, so each is the function
  below and no law of arithmetic is used. An entry depends on row a of x and of n only, and of row c of the weights and entry c of the biases, which is what
  lets a block of rows stand for the matching rows of the whole array.
-/
import Idealize.ShloMosaic.Lib.ValueIdx
import Idealize.ShloMosaic.Lib.ValueLayout
import Idealize.ShloMosaic.Lib.Pipeline.Value
import Idealize.ShloMosaic.PureOps.Ideal.Laws
import proofs.«161688_j56075093017243_1_alg».proof.Proof.LibMatmul
import proofs.«161688_j56075093017243_1_alg».proof.Proof.LibLayout
import proofs.«161688_j56075093017243_1_alg».proof.Proof.LibDense

noncomputable section

namespace Cert.Lib.SageLayer

open Idealize.ShloMosaic Idealize.ShloMosaic.ValueIdx

variable {A K C : Nat}

/-- Row a of x against row c of w: Σ_k x[a,k]·w[c,k], entry (a, c) of x·wᵀ. -/
def rowDot (x : (⟨2, ![A, K]⟩ : Shape).Idx → EReal) (w : (⟨2, ![C, K]⟩ : Shape).Idx → EReal) (a : Fin A) (c : Fin C) : EReal :=
  ∑ k : Fin K, x (ix2 a k) * w (ix2 c k)

/-- The layer max(((x·wsᵀ + bs) + n·wnᵀ) + bn, 0) at every entry; the zero is the ideal value of the all-zero f32 word. -/
def sage (x n : (⟨2, ![A, K]⟩ : Shape).Idx → EReal) (ws : (⟨2, ![C, K]⟩ : Shape).Idx → EReal)
    (bs : (⟨1, ![C]⟩ : Shape).Idx → EReal) (wn : (⟨2, ![C, K]⟩ : Shape).Idx → EReal)
    (bn : (⟨1, ![C]⟩ : Shape).Idx → EReal) : (⟨2, ![A, C]⟩ : Shape).Idx → EReal :=
  fun i => max (((rowDot x ws (i 0 : Fin A) (i 1 : Fin C) + bs (ix1 (i 1 : Fin C))) + rowDot n wn (i 0 : Fin A) (i 1 : Fin C))
    + bn (ix1 (i 1 : Fin C))) (Ideal.ofBits .f32 0x00000000#32)

/-- The projection h·woᵀ + bo at every entry. -/
def proj (h : (⟨2, ![A, K]⟩ : Shape).Idx → EReal) (wo : (⟨2, ![C, K]⟩ : Shape).Idx → EReal)
    (bo : (⟨1, ![C]⟩ : Shape).Idx → EReal) : (⟨2, ![A, C]⟩ : Shape).Idx → EReal :=
  fun i => rowDot h wo (i 0 : Fin A) (i 1 : Fin C) + bo (ix1 (i 1 : Fin C))

theorem sage_apply (x n : (⟨2, ![A, K]⟩ : Shape).Idx → EReal) (ws : (⟨2, ![C, K]⟩ : Shape).Idx → EReal)
    (bs : (⟨1, ![C]⟩ : Shape).Idx → EReal) (wn : (⟨2, ![C, K]⟩ : Shape).Idx → EReal)
    (bn : (⟨1, ![C]⟩ : Shape).Idx → EReal) (a : Fin A) (c : Fin C) :
    sage x n ws bs wn bn (ix2 a c)
      = max (((rowDot x ws a c + bs (ix1 c)) + rowDot n wn a c) + bn (ix1 c)) (Ideal.ofBits .f32 0x00000000#32) := rfl

theorem proj_apply (h : (⟨2, ![A, K]⟩ : Shape).Idx → EReal) (wo : (⟨2, ![C, K]⟩ : Shape).Idx → EReal)
    (bo : (⟨1, ![C]⟩ : Shape).Idx → EReal) (a : Fin A) (c : Fin C) :
    proj h wo bo (ix2 a c) = rowDot h wo a c + bo (ix1 c) := rfl

/-! ## An entry reads one row of each operand -/

/-- Two pairs of operands that agree on row a of the left and row c of the right give entry (a, c) the same products. -/
theorem rowDot_congr {A' : Nat} (x : (⟨2, ![A, K]⟩ : Shape).Idx → EReal) (x' : (⟨2, ![A', K]⟩ : Shape).Idx → EReal)
    (w w' : (⟨2, ![C, K]⟩ : Shape).Idx → EReal) (a : Fin A) (a' : Fin A') (c : Fin C)
    (hx : ∀ k : Fin K, x' (ix2 a' k) = x (ix2 a k)) (hw : ∀ k : Fin K, w' (ix2 c k) = w (ix2 c k)) :
    rowDot x' w' a' c = rowDot x w a c := by
  unfold rowDot
  exact Finset.sum_congr rfl fun k _ => by rw [hx k, hw k]

/-- Entry (a, c) of the layer reads row a of x and of n, row c of the two weights and entry c of the two biases:
    operands that agree there give the same entry. (So the layer on a block of rows is the layer on the whole, row
    by row, whatever copy of the weights the block's computation was handed.) -/
theorem sage_congr {A' : Nat} (x n : (⟨2, ![A, K]⟩ : Shape).Idx → EReal) (x' n' : (⟨2, ![A', K]⟩ : Shape).Idx → EReal)
    (ws ws' : (⟨2, ![C, K]⟩ : Shape).Idx → EReal) (bs bs' : (⟨1, ![C]⟩ : Shape).Idx → EReal)
    (wn wn' : (⟨2, ![C, K]⟩ : Shape).Idx → EReal) (bn bn' : (⟨1, ![C]⟩ : Shape).Idx → EReal)
    (a : Fin A) (a' : Fin A') (c : Fin C)
    (hx : ∀ k : Fin K, x' (ix2 a' k) = x (ix2 a k)) (hn : ∀ k : Fin K, n' (ix2 a' k) = n (ix2 a k))
    (hws : ∀ k : Fin K, ws' (ix2 c k) = ws (ix2 c k)) (hbs : bs' (ix1 c) = bs (ix1 c))
    (hwn : ∀ k : Fin K, wn' (ix2 c k) = wn (ix2 c k)) (hbn : bn' (ix1 c) = bn (ix1 c)) :
    sage x' n' ws' bs' wn' bn' (ix2 a' c) = sage x n ws bs wn bn (ix2 a c) := by
  rw [sage_apply, sage_apply, rowDot_congr x x' ws ws' a a' c hx hws, rowDot_congr n n' wn wn' a a' c hn hwn, hbs, hbn]

/-- The same for the projection. -/
theorem proj_congr {A' : Nat} (h : (⟨2, ![A, K]⟩ : Shape).Idx → EReal) (h' : (⟨2, ![A', K]⟩ : Shape).Idx → EReal)
    (wo wo' : (⟨2, ![C, K]⟩ : Shape).Idx → EReal) (bo bo' : (⟨1, ![C]⟩ : Shape).Idx → EReal)
    (a : Fin A) (a' : Fin A') (c : Fin C) (hh : ∀ k : Fin K, h' (ix2 a' k) = h (ix2 a k))
    (hwo : ∀ k : Fin K, wo' (ix2 c k) = wo (ix2 c k)) (hbo : bo' (ix1 c) = bo (ix1 c)) :
    proj h' wo' bo' (ix2 a' c) = proj h wo bo (ix2 a c) := by
  rw [proj_apply, proj_apply, rowDot_congr h h' wo wo' a a' c hh hwo, hbo]

/-! ## The matrix unit's spelling -/

/-- A left operand against a narrowed, transposed weight into a zero accumulator: entry (a, c) is row a against row c. -/
theorem mxuT_apply {φ : FTy} (xb : FVec Ideal ⟨2, ![A, K]⟩ φ) (w : FVec Ideal ⟨2, ![C, K]⟩ .f32)
    (hlt : FTy.bf16.bits < FTy.f32.bits) (ht : (⟨2, ![C, K]⟩ : Shape).Transposes [1, 0] ⟨2, ![K, C]⟩)
    (prec : Option ContractPrecision) (a : Fin A) (c : Fin C) :
    matmul (DotDims.plain A K C) prec xb (transpose ⟨2, ![K, C]⟩ [1, 0] (truncf .bf16 w hlt) ht)
        (constant ⟨2, ![A, C]⟩ .f32 0x00000000#32) (ix2 a c)
      = rowDot xb w a c := by
  show FloatOps.matmul (DotDims.plain A K C) prec xb (transpose ⟨2, ![K, C]⟩ [1, 0] (truncf .bf16 w hlt) ht)
    (constant ⟨2, ![A, C]⟩ .f32 0x00000000#32) (ix2 a c) = _
  rw [Cert.Lib.Matmul.matmul_zero_apply]
  unfold rowDot
  refine Finset.sum_congr rfl fun k _ => ?_
  rw [transpose_ix2_apply]
  rfl

/-- The layer as the matrix unit spells it. -/
theorem mxu_sage {φ : FTy} (xb nb : FVec Ideal ⟨2, ![A, K]⟩ φ) (ws wn : FVec Ideal ⟨2, ![C, K]⟩ .f32)
    (bs bn : FVec Ideal ⟨1, ![C]⟩ .f32)
    (hlt : FTy.bf16.bits < FTy.f32.bits) (ht : (⟨2, ![C, K]⟩ : Shape).Transposes [1, 0] ⟨2, ![K, C]⟩)
    (h1 : (⟨1, ![C]⟩ : Shape).ShapeCasts ⟨2, ![1, C]⟩) (h2 : (⟨2, ![1, C]⟩ : Shape).Broadcasts ⟨2, ![A, C]⟩)
    (prec : Option ContractPrecision) :
    maximumf
      (addf
        (addf
          (addf
            (matmul (DotDims.plain A K C) prec xb (transpose ⟨2, ![K, C]⟩ [1, 0] (truncf .bf16 ws hlt) ht)
              (constant ⟨2, ![A, C]⟩ .f32 0x00000000#32))
            (broadcastTo ⟨2, ![A, C]⟩ (shapeCast ⟨2, ![1, C]⟩ bs h1) h2))
          (matmul (DotDims.plain A K C) prec nb (transpose ⟨2, ![K, C]⟩ [1, 0] (truncf .bf16 wn hlt) ht)
            (constant ⟨2, ![A, C]⟩ .f32 0x00000000#32)))
        (broadcastTo ⟨2, ![A, C]⟩ (shapeCast ⟨2, ![1, C]⟩ bn h1) h2))
      (broadcast ⟨2, ![A, C]⟩ (Scalar.ofBits (F := Ideal) .f32 0x00000000#32))
    = sage xb nb ws bs wn bn := by
  funext i
  obtain ⟨a, c, rfl⟩ : ∃ (a : Fin A) (c : Fin C), i = ix2 a c := ⟨i 0, i 1, eq_ix2 i⟩
  rw [maximumf_apply, addf_apply, addf_apply, addf_apply, mxuT_apply, mxuT_apply,
    Cert.Lib.Layout.bcastRow_apply, Cert.Lib.Layout.bcastRow_apply, sage_apply]
  rfl

/-- The projection as the matrix unit spells it. -/
theorem mxu_proj {φ : FTy} (hb : FVec Ideal ⟨2, ![A, K]⟩ φ) (wo : FVec Ideal ⟨2, ![C, K]⟩ .f32)
    (bo : FVec Ideal ⟨1, ![C]⟩ .f32)
    (hlt : FTy.bf16.bits < FTy.f32.bits) (ht : (⟨2, ![C, K]⟩ : Shape).Transposes [1, 0] ⟨2, ![K, C]⟩)
    (h1 : (⟨1, ![C]⟩ : Shape).ShapeCasts ⟨2, ![1, C]⟩) (h2 : (⟨2, ![1, C]⟩ : Shape).Broadcasts ⟨2, ![A, C]⟩)
    (prec : Option ContractPrecision) :
    addf
      (matmul (DotDims.plain A K C) prec hb (transpose ⟨2, ![K, C]⟩ [1, 0] (truncf .bf16 wo hlt) ht)
        (constant ⟨2, ![A, C]⟩ .f32 0x00000000#32))
      (broadcastTo ⟨2, ![A, C]⟩ (shapeCast ⟨2, ![1, C]⟩ bo h1) h2)
    = proj hb wo bo := by
  funext i
  obtain ⟨a, c, rfl⟩ : ∃ (a : Fin A) (c : Fin C), i = ix2 a c := ⟨i 0, i 1, eq_ix2 i⟩
  rw [addf_apply, mxuT_apply, Cert.Lib.Layout.bcastRow_apply, proj_apply]

/-! ## The host's spelling -/

/-- The host's dot_general against a transposed weight: entry (a, c) is row a against row c. -/
theorem hostT_apply (x : FVec Ideal ⟨2, ![A, K]⟩ .f32) (w : FVec Ideal ⟨2, ![C, K]⟩ .f32)
    (ht : (⟨2, ![C, K]⟩ : Shape).Transposes [1, 0] ⟨2, ![K, C]⟩) (prec : Option ContractPrecision)
    (a : Fin A) (c : Fin C) :
    Host.dotGeneral (DotDims.plain A K C) prec x (transpose ⟨2, ![K, C]⟩ [1, 0] w ht) (ix2 a c) = rowDot x w a c := by
  show FloatOps.dotGeneral (DotDims.plain A K C) prec .single x (transpose ⟨2, ![K, C]⟩ [1, 0] w ht) (ix2 a c) = _
  rw [Cert.Lib.Matmul.dotGeneral_apply]
  unfold rowDot
  refine Finset.sum_congr rfl fun k _ => ?_
  rw [transpose_ix2_apply]

/-- The layer as the host spells it. -/
theorem host_sage (x n : FVec Ideal ⟨2, ![A, K]⟩ .f32) (ws wn : FVec Ideal ⟨2, ![C, K]⟩ .f32)
    (bs bn : FVec Ideal ⟨1, ![C]⟩ .f32)
    (ht : (⟨2, ![C, K]⟩ : Shape).Transposes [1, 0] ⟨2, ![K, C]⟩)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf
      (addf
        (addf
          (addf
            (Host.dotGeneral (DotDims.plain A K C) prec x (transpose ⟨2, ![K, C]⟩ [1, 0] ws ht))
            (broadcastInDim ⟨2, ![A, C]⟩ (![0, 1] : Fin 2 → Fin 2) hb2
              (broadcastInDim ⟨2, ![1, C]⟩ (![1] : Fin 1 → Fin 2) hb1 bs)))
          (Host.dotGeneral (DotDims.plain A K C) prec n (transpose ⟨2, ![K, C]⟩ [1, 0] wn ht)))
        (broadcastInDim ⟨2, ![A, C]⟩ (![0, 1] : Fin 2 → Fin 2) hb2
          (broadcastInDim ⟨2, ![1, C]⟩ (![1] : Fin 1 → Fin 2) hb1 bn)))
      (broadcastInDim ⟨2, ![A, C]⟩ (![] : Fin 0 → Fin 2) h0 (constant (F := Ideal) ⟨0, ![]⟩ .f32 0x00000000#32))
    = sage x n ws bs wn bn := by
  funext i
  obtain ⟨a, c, rfl⟩ : ∃ (a : Fin A) (c : Fin C), i = ix2 a c := ⟨i 0, i 1, eq_ix2 i⟩
  rw [maximumf_apply, addf_apply, addf_apply, addf_apply, hostT_apply, hostT_apply,
    Cert.Lib.Dense.hostBias_apply, Cert.Lib.Dense.hostBias_apply,
    broadcastInDim_apply (![] : Fin 0 → Fin 2) h0 _ (ix2 a c) ix0 (fun d => d.elim0), sage_apply]
  rfl

/-- The projection as the host spells it. -/
theorem host_proj (h : FVec Ideal ⟨2, ![A, K]⟩ .f32) (wo : FVec Ideal ⟨2, ![C, K]⟩ .f32)
    (bo : FVec Ideal ⟨1, ![C]⟩ .f32)
    (ht : (⟨2, ![C, K]⟩ : Shape).Transposes [1, 0] ⟨2, ![K, C]⟩)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf
      (Host.dotGeneral (DotDims.plain A K C) prec h (transpose ⟨2, ![K, C]⟩ [1, 0] wo ht))
      (broadcastInDim ⟨2, ![A, C]⟩ (![0, 1] : Fin 2 → Fin 2) hb2
        (broadcastInDim ⟨2, ![1, C]⟩ (![1] : Fin 1 → Fin 2) hb1 bo))
    = proj h wo bo := by
  funext i
  obtain ⟨a, c, rfl⟩ : ∃ (a : Fin A) (c : Fin C), i = ix2 a c := ⟨i 0, i 1, eq_ix2 i⟩
  rw [addf_apply, hostT_apply, Cert.Lib.Dense.hostBias_apply, proj_apply]

end Cert.Lib.SageLayer

end
-- ==== Proof.KernelBlocks.lean ====
/-
  What the two kernel regions leave in their output arrays, as whole-array functions of what each region finds.

  Region 0 walks 20 blocks of 5000 rows. At block t it is handed rows 5000·t … 5000·t + 4999 of the node features and of
  the neighbour means, and the two weight matrices and the two biases whole; it stores the layer
  max(((x·wsᵀ + bs) + n·wnᵀ) + bn, 0) of that block of rows. An entry of the layer reads one row of x and of n only, so
  the block written back is rows 5000·t … of the layer of the whole arrays; the 20 blocks tile the 100000 rows, so the
  output array ends as the layer of the whole arrays. Region 1 does the same with a second layer followed by the
  projection h·woᵀ + bo, row by row again.
-/
import proofs.«161688_j56075093017243_1_alg».proof.Proof.Gen.KernelIdeal.Frame
import proofs.«161688_j56075093017243_1_alg».proof.Proof.LibSageLayer
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.SageLayer

theorem hz2 : (![0, 0] : Fin 2 → Nat) = fun _ => 0 := funext fun a => by fin_cases a <;> rfl
theorem hz1 : (![0] : Fin 1 → Nat) = fun _ => 0 := funext fun a => by fin_cases a; rfl

/-! ## The bodies' stored values are the layer functions of the loaded blocks -/

/-- Region 0's stored value: the layer of the loaded block of rows. -/
theorem pay0_eq (v0 v2 : Vec Ideal S5000x64 .f32) (v5 v7 : Vec Ideal S128x64 .f32) (v9 v10 : Vec Ideal S128 .f32) :
    k0_pay1 (F := Ideal) v0 v2 v5 v7 v9 v10 = sage (A := 5000) (K := 64) (C := 128) v0 v2 v5 v9 v7 v10 := by
  unfold k0_pay1
  refine (mxu_sage (A := 5000) (K := 64) (C := 128) _ _ v5 v7 v9 v10 _ _ _ _ none).trans ?_
  rw [shapeCast_self]
  rfl

/-- Region 1's stored value: the projection of the second layer of the loaded block of rows. -/
theorem pay1_eq (v0 v3 : Vec Ideal S5000x128 .f32) (v6 v8 : Vec Ideal S128x128 .f32) (v10 v11 : Vec Ideal S128 .f32)
    (v26 : Vec Ideal S64x128 .f32) (v28 : Vec Ideal S64 .f32) :
    k1_pay1 (F := Ideal) v0 v3 v6 v8 v10 v11 v26 v28
      = proj (A := 5000) (K := 128) (C := 64) (sage (A := 5000) (K := 128) (C := 128) v0 v3 v6 v10 v8 v11) v26 v28 := by
  unfold k1_pay1
  refine (mxu_proj (A := 5000) (K := 128) (C := 64) _ v26 v28 _ _ _ _ none).trans ?_
  refine congrArg (fun h => proj (A := 5000) (K := 128) (C := 64) h v26 v28) ?_
  refine (mxu_sage (A := 5000) (K := 128) (C := 128) _ _ v6 v8 v10 v11 _ _ _ _ none).trans ?_
  rw [shapeCast_self, shapeCast_self]
  rfl

/-! ## Region 0: the first layer -/

section Region0

variable (V : (c : Dev nD) → (b : Ref sig .tc) → Buf (Elt Ideal) ((c : Thread nD τ).loc b))

/-- The printed index maps, decided over the 20 grid points: the two row-blocked inputs and the output move together
    (block row t, block column 0); the weights and biases stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The whole arrays region 0 works on, as it finds them. -/
abbrev layer0 (c : Dev nD) : S100000x128.Idx → EReal :=
  sage (A := 100000) (K := 64) (C := 128) (V c main_arg0) (V c main_v24) (V c main_arg2) (V c main_arg3) (V c main_arg4) (V c main_arg5)

/-- What point t writes back is block t of the layer of the whole arrays: row p of the block is row 5000·t + p. -/
theorem flushed0_eq (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S128x64) hz2, View.ld_unit_zero (S := S128) hz1]
  rw [pay0_eq]
  obtain ⟨e00, e01, e10, e11, e20, e21, e30, e40, e41, e50, e60, e61⟩ := idx_facts0 t
  have ht : t.val < 20 := t.isLt
  funext j
  have hp : (j 0).val < 5000 := (j 0).isLt
  have hq : (j 1).val < 128 := (j 1).isLt
  have hj : j = ix2 (⟨(j 0).val, hp⟩ : Fin 5000) (⟨(j 1).val, hq⟩ : Fin 128) :=
    funext fun a => Fin.ext (by match a with | ⟨0, _⟩ => rfl | ⟨1, _⟩ => rfl)
  have hemb : ((cfg0.win 6).blk t).view.emb j
      = ix2 (⟨t.val * 5000 + (j 0).val, by omega⟩ : Fin 100000) (⟨(j 1).val, hq⟩ : Fin 128) := by
    funext a; apply Fin.ext
    match a with
    | ⟨0, _⟩ => show win0_6.index t (0 : Fin 2) * 5000 + 1 * (j 0).val = t.val * 5000 + (j 0).val; omega
    | ⟨1, _⟩ => show win0_6.index t (1 : Fin 2) * 128 + 1 * (j 1).val = (j 1).val; omega
  show sage (A := 5000) (K := 64) (C := 128) (iblk0 V c 0 t) (iblk0 V c 1 t) (iblk0 V c 2 t) (iblk0 V c 3 t) (iblk0 V c 4 t) (iblk0 V c 5 t) j
    = layer0 V c (((cfg0.win 6).blk t).view.emb j)
  rw [hemb]
  refine (congrArg _ hj).trans ?_
  refine sage_congr (A := 100000) (K := 64) (C := 128) (A' := 5000) (V c main_arg0) (V c main_v24) (iblk0 V c 0 t) (iblk0 V c 1 t)
    (V c main_arg2) (iblk0 V c 2 t) (V c main_arg3) (iblk0 V c 3 t) (V c main_arg4) (iblk0 V c 4 t) (V c main_arg5) (iblk0 V c 5 t)
    ⟨t.val * 5000 + (j 0).val, by omega⟩ ⟨(j 0).val, hp⟩ ⟨(j 1).val, hq⟩ ?_ ?_ ?_ ?_ ?_ ?_
  · intro k
    show V c main_arg0 (((cfg0.win 0).blk t).view.emb (ix2 (⟨(j 0).val, hp⟩ : Fin 5000) k)) = _
    refine congrArg (V c main_arg0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 64 + 1 * k.val = k.val; omega
  · intro k
    show V c main_v24 (((cfg0.win 1).blk t).view.emb (ix2 (⟨(j 0).val, hp⟩ : Fin 5000) k)) = _
    refine congrArg (V c main_v24) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 64 + 1 * k.val = k.val; omega
  · intro k
    show V c main_arg2 (((cfg0.win 2).blk t).view.emb (ix2 (⟨(j 1).val, hq⟩ : Fin 128) k)) = _
    refine congrArg (V c main_arg2) (funext fun a => Fin.ext ?_)
    match a with
    | ⟨0, _⟩ => show win0_2.index t (0 : Fin 2) * 128 + 1 * (j 1).val = (j 1).val; omega
    | ⟨1, _⟩ => show win0_2.index t (1 : Fin 2) * 64 + 1 * k.val = k.val; omega
  · show V c main_arg3 (((cfg0.win 3).blk t).view.emb (ix1 (⟨(j 1).val, hq⟩ : Fin 128))) = _
    refine congrArg (V c main_arg3) (funext fun a => Fin.ext ?_)
    match a with
    | ⟨0, _⟩ => show win0_3.index t (0 : Fin 1) * 128 + 1 * (j 1).val = (j 1).val; omega
  · intro k
    show V c main_arg4 (((cfg0.win 4).blk t).view.emb (ix2 (⟨(j 1).val, hq⟩ : Fin 128) k)) = _
    refine congrArg (V c main_arg4) (funext fun a => Fin.ext ?_)
    match a with
    | ⟨0, _⟩ => show win0_4.index t (0 : Fin 2) * 128 + 1 * (j 1).val = (j 1).val; omega
    | ⟨1, _⟩ => show win0_4.index t (1 : Fin 2) * 64 + 1 * k.val = k.val; omega
  · show V c main_arg5 (((cfg0.win 5).blk t).view.emb (ix1 (⟨(j 1).val, hq⟩ : Fin 128))) = _
    refine congrArg (V c main_arg5) (funext fun a => Fin.ext ?_)
    match a with
    | ⟨0, _⟩ => show win0_5.index t (0 : Fin 1) * 128 + 1 * (j 1).val = (j 1).val; omega

/-- An index of the output array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- The 20 blocks of 5000 rows tile the 100000 rows: row r is in block r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hT : (i 0).val / 5000 < cfg0.N := by show _ < 20; omega
  refine ⟨⟨(i 0).val / 5000, hT⟩, flush0_6 _, ?_⟩
  obtain ⟨-, -, -, -, -, -, -, -, -, -, e60, e61⟩ := idx_facts0 ⟨(i 0).val / 5000, hT⟩
  rw [mem_blk0]
  intro a
  match a with
  | ⟨0, _⟩ =>
    show win0_6.index ⟨(i 0).val / 5000, hT⟩ (0 : Fin 2) * 5000 ≤ (i 0).val ∧ (i 0).val < win0_6.index ⟨(i 0).val / 5000, hT⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, hT⟩ (1 : Fin 2) * 128 ≤ (i 1).val ∧ (i 1).val < win0_6.index ⟨(i 0).val / 5000, hT⟩ (1 : Fin 2) * 128 + 128
    rw [e61]; omega

/-- Region 0's output array ends as the first layer of the whole arrays the region found. -/
theorem final0 (c : Dev nD) : (dat0 V c).arrAt 6 cfg0.N = layer0 V c :=
  (dat0 V c).arrAt_eq_of_cover 6 (layer0 V c) (fun t _ => flushed0_eq V c t) cover0

end Region0

/-! ## Region 1: the second layer and the projection -/

section Region1

variable (V : (c : Dev nD) → (b : Ref sig .tc) → Buf (Elt Ideal) ((c : Thread nD τ).loc b))

/-- The printed index maps, decided over the 20 grid points: the two row-blocked inputs and the output move together
    (block row t, block column 0); the weights and biases stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The second layer of the whole arrays region 1 finds. -/
abbrev layer1 (c : Dev nD) : S100000x128.Idx → EReal :=
  sage (A := 100000) (K := 128) (C := 128) (V c main_v25) (V c main_v38) (V c main_arg6) (V c main_arg7) (V c main_arg8) (V c main_arg9)

/-- Its projection: what region 1's output array will hold. -/
abbrev result1 (c : Dev nD) : S100000x64.Idx → EReal :=
  proj (A := 100000) (K := 128) (C := 64) (layer1 V c) (V c main_arg10) (V c main_arg11)

/-- Row p of block t of the second layer's inputs is row 5000·t + p of the whole arrays, and the weights and biases are
    handed over whole: the layer of the blocks at (p, k) is the layer of the whole arrays at (5000·t + p, k). -/
theorem layer1_block (c : Dev nD) (t : Fin cfg1.N) (p : Fin 5000) (hp : t.val * 5000 + p.val < 100000) (k : Fin 128) :
    sage (A := 5000) (K := 128) (C := 128) (iblk1 V c 0 t) (iblk1 V c 1 t) (iblk1 V c 2 t) (iblk1 V c 3 t) (iblk1 V c 4 t) (iblk1 V c 5 t) (ix2 p k)
      = layer1 V c (ix2 (⟨t.val * 5000 + p.val, hp⟩ : Fin 100000) k) := by
  obtain ⟨e00, e01, e10, e11, e20, e21, e30, e40, e41, e50, e60, e61, e70, e80, e81⟩ := idx_facts1 t
  refine sage_congr (A := 100000) (K := 128) (C := 128) (A' := 5000) (V c main_v25) (V c main_v38) (iblk1 V c 0 t) (iblk1 V c 1 t)
    (V c main_arg6) (iblk1 V c 2 t) (V c main_arg7) (iblk1 V c 3 t) (V c main_arg8) (iblk1 V c 4 t) (V c main_arg9) (iblk1 V c 5 t)
    ⟨t.val * 5000 + p.val, hp⟩ p k ?_ ?_ ?_ ?_ ?_ ?_
  · intro k'
    show V c main_v25 (((cfg1.win 0).blk t).view.emb (ix2 p k')) = _
    refine congrArg (V c main_v25) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k'.val = k'.val; omega
  · intro k'
    show V c main_v38 (((cfg1.win 1).blk t).view.emb (ix2 p k')) = _
    refine congrArg (V c main_v38) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k'.val = k'.val; omega
  · intro k'
    show V c main_arg6 (((cfg1.win 2).blk t).view.emb (ix2 k k')) = _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * k'.val = k'.val; omega
  · show V c main_arg7 (((cfg1.win 3).blk t).view.emb (ix1 k)) = _
    refine congrArg (V c main_arg7) (funext fun a => Fin.ext ?_)
    match a with
    | ⟨0, _⟩ => show win1_3.index t (0 : Fin 1) * 128 + 1 * k.val = k.val; omega
  · intro k'
    show V c main_arg8 (((cfg1.win 4).blk t).view.emb (ix2 k k')) = _
    refine congrArg (V c main_arg8) (funext fun a => Fin.ext ?_)
    match a with
    | ⟨0, _⟩ => show win1_4.index t (0 : Fin 2) * 128 + 1 * k.val = k.val; omega
    | ⟨1, _⟩ => show win1_4.index t (1 : Fin 2) * 128 + 1 * k'.val = k'.val; omega
  · show V c main_arg9 (((cfg1.win 5).blk t).view.emb (ix1 k)) = _
    refine congrArg (V c main_arg9) (funext fun a => Fin.ext ?_)
    match a with
    | ⟨0, _⟩ => show win1_5.index t (0 : Fin 1) * 128 + 1 * k.val = k.val; omega

/-- What point t writes back is block t of the projected second layer of the whole arrays. -/
theorem flushed1_eq (c : Dev nD) (t : Fin cfg1.N) :
    (dat1 V c).flushed 8 t = ((cfg1.win 8).blk t).view.read (Elt Ideal) (result1 V c) := by
  show (cfg1.win 8).cut (grid1.coords t) ((dat1 V c).after 8 t) = _
  rw [after1_8]
  unfold out1_8
  rw [View.canon_unit_zero hz2]
  simp only [View.ld_unit_zero (S := S5000x128) hz2, View.ld_unit_zero (S := S128x128) hz2, View.ld_unit_zero (S := S128) hz1,
    View.ld_unit_zero (S := S64x128) hz2, View.ld_unit_zero (S := S64) hz1]
  rw [pay1_eq]
  obtain ⟨e00, e01, e10, e11, e20, e21, e30, e40, e41, e50, e60, e61, e70, e80, e81⟩ := idx_facts1 t
  have ht : t.val < 20 := t.isLt
  funext j
  have hp : (j 0).val < 5000 := (j 0).isLt
  have hq : (j 1).val < 64 := (j 1).isLt
  have hj : j = ix2 (⟨(j 0).val, hp⟩ : Fin 5000) (⟨(j 1).val, hq⟩ : Fin 64) :=
    funext fun a => Fin.ext (by match a with | ⟨0, _⟩ => rfl | ⟨1, _⟩ => rfl)
  have hemb : ((cfg1.win 8).blk t).view.emb j
      = ix2 (⟨t.val * 5000 + (j 0).val, by omega⟩ : Fin 100000) (⟨(j 1).val, hq⟩ : Fin 64) := by
    funext a; apply Fin.ext
    match a with
    | ⟨0, _⟩ => show win1_8.index t (0 : Fin 2) * 5000 + 1 * (j 0).val = t.val * 5000 + (j 0).val; omega
    | ⟨1, _⟩ => show win1_8.index t (1 : Fin 2) * 64 + 1 * (j 1).val = (j 1).val; omega
  show proj (A := 5000) (K := 128) (C := 64)
      (sage (A := 5000) (K := 128) (C := 128) (iblk1 V c 0 t) (iblk1 V c 1 t) (iblk1 V c 2 t) (iblk1 V c 3 t) (iblk1 V c 4 t) (iblk1 V c 5 t))
      (iblk1 V c 6 t) (iblk1 V c 7 t) j
    = result1 V c (((cfg1.win 8).blk t).view.emb j)
  rw [hemb]
  refine (congrArg _ hj).trans ?_
  refine proj_congr (A := 100000) (K := 128) (C := 64) (A' := 5000) (layer1 V c)
    (sage (A := 5000) (K := 128) (C := 128) (iblk1 V c 0 t) (iblk1 V c 1 t) (iblk1 V c 2 t) (iblk1 V c 3 t) (iblk1 V c 4 t) (iblk1 V c 5 t))
    (V c main_arg10) (iblk1 V c 6 t) (V c main_arg11) (iblk1 V c 7 t)
    ⟨t.val * 5000 + (j 0).val, by omega⟩ ⟨(j 0).val, hp⟩ ⟨(j 1).val, hq⟩ ?_ ?_ ?_
  · intro k
    exact layer1_block V c t ⟨(j 0).val, hp⟩ (by show t.val * 5000 + (j 0).val < 100000; omega) k
  · intro k
    show V c main_arg10 (((cfg1.win 6).blk t).view.emb (ix2 (⟨(j 1).val, hq⟩ : Fin 64) k)) = _
    refine congrArg (V c main_arg10) (funext fun a => Fin.ext ?_)
    match a with
    | ⟨0, _⟩ => show win1_6.index t (0 : Fin 2) * 64 + 1 * (j 1).val = (j 1).val; omega
    | ⟨1, _⟩ => show win1_6.index t (1 : Fin 2) * 128 + 1 * k.val = k.val; omega
  · show V c main_arg11 (((cfg1.win 7).blk t).view.emb (ix1 (⟨(j 1).val, hq⟩ : Fin 64))) = _
    refine congrArg (V c main_arg11) (funext fun a => Fin.ext ?_)
    match a with
    | ⟨0, _⟩ => show win1_7.index t (0 : Fin 1) * 64 + 1 * (j 1).val = (j 1).val; omega

/-- An index of the output array is in point t's block iff each coordinate is in the block's range on its axis. -/
theorem mem_blk1 (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v39).slice (win1_8.rect t)).set ↔ _
  rw [View.set_slice_whole, Rect.mem_set_unit]
  exact Iff.rfl

/-- The 20 blocks of 5000 rows tile the 100000 rows: row r is in block r / 5000. -/
theorem cover1 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hT : (i 0).val / 5000 < cfg1.N := by show _ < 20; omega
  refine ⟨⟨(i 0).val / 5000, hT⟩, flush1_8 _, ?_⟩
  obtain ⟨-, -, -, -, -, -, -, -, -, -, -, -, -, e80, e81⟩ := idx_facts1 ⟨(i 0).val / 5000, hT⟩
  rw [mem_blk1]
  intro a
  match a with
  | ⟨0, _⟩ =>
    show win1_8.index ⟨(i 0).val / 5000, hT⟩ (0 : Fin 2) * 5000 ≤ (i 0).val ∧ (i 0).val < win1_8.index ⟨(i 0).val / 5000, hT⟩ (0 : Fin 2) * 5000 + 5000
    rw [e80]; show (i 0).val / 5000 * 5000 ≤ (i 0).val ∧ (i 0).val < (i 0).val / 5000 * 5000 + 5000; omega
  | ⟨1, _⟩ =>
    show win1_8.index ⟨(i 0).val / 5000, hT⟩ (1 : Fin 2) * 64 ≤ (i 1).val ∧ (i 1).val < win1_8.index ⟨(i 0).val / 5000, hT⟩ (1 : Fin 2) * 64 + 64
    rw [e81]; omega

/-- Region 1's output array ends as the projected second layer of the whole arrays the region found. -/
theorem final1 (c : Dev nD) : (dat1 V c).arrAt 8 cfg1.N = result1 V c :=
  (dat1 V c).arrAt_eq_of_cover 8 (result1 V c) (fun t _ => flushed1_eq V c t) cover1

end Region1

end Cert.KernelIdeal.Blocks

end
-- ==== Proof.KernelHost.lean ====
/-
  The host side of the idealized kernel program: what the two kernel regions find in their input arrays, and what the
  result array holds, as terms of the launch memory.

  Before the first region the host slices the edge list into source and destination nodes, counts every node's in-degree
  by adding a one per incoming edge, takes the reciprocal of the degree raised to at least one, sums for every node the
  feature rows of its incoming edges' sources (a gather by source, a scatter-add by destination) and multiplies each
  row of sums by that node's reciprocal. Between the regions it does the same gather, scatter-add and product on the
  first region's output, reusing the index vectors and the reciprocals. The gather and the scatter-add are carried as
  they stand; nothing below looks inside them.
-/
import proofs.«161688_j56075093017243_1_alg».proof.Proof.Gen.KernelIdeal.Frame
import proofs.«161688_j56075093017243_1_alg».proof.Proof.KernelBlocks
import Idealize.ShloMosaic.Lib.StableHlo.Run

set_option maxRecDepth 16384

noncomputable section

namespace Cert.KernelIdeal.HostTerms

open Cert.KernelIdeal Cert.KernelIdeal.Gen
open Idealize.ShloMosaic Idealize.ShloMosaic.TcCoe Idealize.SL.Sem Idealize.ShloMosaic.StableHlo
open Cert.Lib.SageLayer

/-- A float array and a 32-bit integer array of a shape, at the ideal values. -/
abbrev F32 (S : Shape) : Type := FVec Ideal S .f32
abbrev I32 (S : Shape) : Type := IVec S 32

/-- Row 0 of the edge list: each edge's source node. -/
def srcVec (ei : I32 S2x1000000) : I32 S1000000 :=
  shapeCast _ (extractStridedSlice S1x1000000 ![0, 0] ei slices_S2x1000000_S1x1000000_0_0) shapeCasts_S1x1000000_S1000000

/-- Row 1 of the edge list: each edge's destination node. -/
def dstVec (ei : I32 S2x1000000) : I32 S1000000 :=
  shapeCast _ (extractStridedSlice S1x1000000 ![1, 0] ei slices_S2x1000000_S1x1000000_1_0) shapeCasts_S1x1000000_S1000000

/-- The source nodes as a column of gather indices, a negative index wrapped by the node count. -/
def srcCol (s : I32 S1000000) : I32 S1000000x1 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- The destination nodes as a column of scatter indices. -/
def dstCol (d : I32 S1000000) : I32 S1000000x1 := broadcastInDim S1000000x1 ![0] bcast_S1000000_S1000000x1_0 d

/-- For every node, the sum of the 64-wide feature rows of the sources of its incoming edges. -/
def nbrSum64 (x : F32 S100000x64) (s d : I32 S1000000) : F32 S100000x64 :=
  Host.scatterAdd (F := Ideal) scatter_S100000x64_S1000000x1_S1000000x64_1_0_0_1
    (broadcastInDim S100000x64 ![] bcast_S_S100000x64 (constant (F := Ideal) S_ .f32 0x00000000#32)) (dstCol d)
    (Host.gather gather_S100000x64_S1000000x1_S1000000x64_1_0_n_n_0_1_164 x (srcCol s))

/-- The same for 128-wide rows. -/
def nbrSum128 (h : F32 S100000x128) (s d : I32 S1000000) : F32 S100000x128 :=
  Host.scatterAdd (F := Ideal) scatter_S100000x128_S1000000x1_S1000000x128_1_0_0_1
    (broadcastInDim S100000x128 ![] bcast_S_S100000x128 (constant (F := Ideal) S_ .f32 0x00000000#32)) (dstCol d)
    (Host.gather gather_S100000x128_S1000000x1_S1000000x128_1_0_n_n_0_1_1128 h (srcCol s))

/-- Every node's in-degree (a one added per incoming edge), raised to at least one. -/
def degMax (d : I32 S1000000) : F32 S100000 :=
  maximumf (F := Ideal)
    (Host.scatterAdd (F := Ideal) scatter_S100000_S1000000x1_S1000000_n_0_0_1
      (broadcastInDim S100000 ![] bcast_S_S100000 (constant (F := Ideal) S_ .f32 0x00000000#32)) (dstCol d)
      (broadcastInDim S1000000 ![] bcast_S_S1000000 (constant (F := Ideal) S_ .f32 0x3F800000#32)))
    (broadcastInDim S100000 ![] bcast_S_S100000 (constant (F := Ideal) S_ .f32 0x3F800000#32))

/-- The reciprocal of that degree. -/
def invDeg (d : I32 S1000000) : F32 S100000 :=
  Host.divf (F := Ideal) (broadcastInDim S100000 ![] bcast_S_S100000 (constant (F := Ideal) S_ .f32 0x3F800000#32)) (degMax d)

/-- The neighbour mean as this program computes it: each row of sums times its node's reciprocal degree. -/
def mean64 (x : F32 S100000x64) (s d : I32 S1000000) (inv : F32 S100000) : F32 S100000x64 :=
  mulf (F := Ideal) (nbrSum64 x s d)
    (broadcastInDim S100000x64 ![0, 1] bcast_S100000x1_S100000x64_0_1 (broadcastInDim S100000x1 ![0] bcast_S100000_S100000x1_0 inv))

def mean128 (h : F32 S100000x128) (s d : I32 S1000000) (inv : F32 S100000) : F32 S100000x128 :=
  mulf (F := Ideal) (nbrSum128 h s d)
    (broadcastInDim S100000x128 ![0, 1] bcast_S100000x1_S100000x128_0_1 (broadcastInDim S100000x1 ![0] bcast_S100000_S100000x1_0 inv))

variable (m : (ℓ : Loc nD τ sig) → Buf (Elt Ideal) ℓ) (ρ : Dev nD → PrngReg)

/-! ## Region 0's entry contents -/

theorem V1_v1 (c : Dev nD) : V1 m ρ c main_v1 = srcVec (m ((c.tc : Thread nD τ).loc main_arg1)) := by
  show StableHlo.after hostOps0 (W0 m ρ c) (Proc.devRef .tc main_v1) = _
  after_results
  rfl

theorem V1_v3 (c : Dev nD) : V1 m ρ c main_v3 = dstVec (m ((c.tc : Thread nD τ).loc main_arg1)) := by
  show StableHlo.after hostOps0 (W0 m ρ c) (Proc.devRef .tc main_v3) = _
  after_results
  rfl

theorem V1_v11 (c : Dev nD) : V1 m ρ c main_v11 = invDeg (dstVec (m ((c.tc : Thread nD τ).loc main_arg1))) := by
  show StableHlo.after hostOps0 (W0 m ρ c) (Proc.devRef .tc main_v11) = _
  after_results
  rfl

theorem V1_v24 (c : Dev nD) : V1 m ρ c main_v24
    = mean64 (m ((c.tc : Thread nD τ).loc main_arg0)) (srcVec (m ((c.tc : Thread nD τ).loc main_arg1)))
        (dstVec (m ((c.tc : Thread nD τ).loc main_arg1))) (invDeg (dstVec (m ((c.tc : Thread nD τ).loc main_arg1)))) := by
  show StableHlo.after hostOps0 (W0 m ρ c) (Proc.devRef .tc main_v24) = _
  after_results_simp <;> rfl

/-- The argument arrays region 0 reads are as launched. -/
theorem V1_arg0 (c : Dev nD) : V1 m ρ c main_arg0 = m ((c.tc : Thread nD τ).loc main_arg0) := by
  show StableHlo.after hostOps0 (W0 m ρ c) (Proc.devRef .tc main_arg0) = _
  after_results_simp <;> rfl
theorem V1_arg2 (c : Dev nD) : V1 m ρ c main_arg2 = m ((c.tc : Thread nD τ).loc main_arg2) := by
  show StableHlo.after hostOps0 (W0 m ρ c) (Proc.devRef .tc main_arg2) = _
  after_results_simp <;> rfl
theorem V1_arg3 (c : Dev nD) : V1 m ρ c main_arg3 = m ((c.tc : Thread nD τ).loc main_arg3) := by
  show StableHlo.after hostOps0 (W0 m ρ c) (Proc.devRef .tc main_arg3) = _
  after_results_simp <;> rfl
theorem V1_arg4 (c : Dev nD) : V1 m ρ c main_arg4 = m ((c.tc : Thread nD τ).loc main_arg4) := by
  show StableHlo.after hostOps0 (W0 m ρ c) (Proc.devRef .tc main_arg4) = _
  after_results_simp <;> rfl
theorem V1_arg5 (c : Dev nD) : V1 m ρ c main_arg5 = m ((c.tc : Thread nD τ).loc main_arg5) := by
  show StableHlo.after hostOps0 (W0 m ρ c) (Proc.devRef .tc main_arg5) = _
  after_results_simp <;> rfl

/-! ## The two layers and the result as functions of the arguments -/

/-- The first layer's output: the node features and their neighbour means through the first layer. -/
def hidden1 (x : F32 S100000x64) (ei : I32 S2x1000000) (ws1 : F32 S128x64) (bs1 : F32 S128) (wn1 : F32 S128x64) (bn1 : F32 S128) :
    F32 S100000x128 :=
  sage (A := 100000) (K := 64) (C := 128) x (mean64 x (srcVec ei) (dstVec ei) (invDeg (dstVec ei))) ws1 bs1 wn1 bn1

/-- The program's result: the second layer of the first layer's output and of its neighbour means, projected. -/
def kernelOut (x : F32 S100000x64) (ei : I32 S2x1000000) (ws1 : F32 S128x64) (bs1 : F32 S128) (wn1 : F32 S128x64) (bn1 : F32 S128)
    (ws2 : F32 S128x128) (bs2 : F32 S128) (wn2 : F32 S128x128) (bn2 : F32 S128) (wo : F32 S64x128) (bo : F32 S64) : F32 S100000x64 :=
  proj (A := 100000) (K := 128) (C := 64)
    (sage (A := 100000) (K := 128) (C := 128) (hidden1 x ei ws1 bs1 wn1 bn1)
      (mean128 (hidden1 x ei ws1 bs1 wn1 bn1) (srcVec ei) (dstVec ei) (invDeg (dstVec ei))) ws2 bs2 wn2 bn2)
    wo bo

/-- Region 0 leaves the first layer's output in its output array. -/
theorem W2_v25 (c : Dev nD) : W2 m ρ c (Proc.devRef .tc main_v25)
    = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 6).trans ((Cert.KernelIdeal.Blocks.final0 (V1 m ρ) c).trans ?_)
  show sage (A := 100000) (K := 64) (C := 128) (V1 m ρ c main_arg0) (V1 m ρ c main_v24) (V1 m ρ c main_arg2) (V1 m ρ c main_arg3)
    (V1 m ρ c main_arg4) (V1 m ρ c main_arg5) = _
  rw [V1_arg0 m ρ c, V1_v24 m ρ c, V1_arg2 m ρ c, V1_arg3 m ρ c, V1_arg4 m ρ c, V1_arg5 m ρ c]
  rfl

/-! ## Region 1's entry contents -/

theorem V3_v25 (c : Dev nD) : V3 m ρ c main_v25
    = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine Eq.trans ?_ (W2_v25 m ρ c)
  show StableHlo.after hostOps1 (W2 m ρ c) (Proc.devRef .tc main_v25) = _
  after_results_simp <;> rfl

theorem W2_v1 (c : Dev nD) : W2 m ρ c (Proc.devRef .tc main_v1) = srcVec (m ((c.tc : Thread nD τ).loc main_arg1)) :=
  (W2_of_ne m ρ c main_v1 (by decide)).trans (V1_v1 m ρ c)

theorem W2_v3 (c : Dev nD) : W2 m ρ c (Proc.devRef .tc main_v3) = dstVec (m ((c.tc : Thread nD τ).loc main_arg1)) :=
  (W2_of_ne m ρ c main_v3 (by decide)).trans (V1_v3 m ρ c)

theorem W2_v11 (c : Dev nD) : W2 m ρ c (Proc.devRef .tc main_v11) = invDeg (dstVec (m ((c.tc : Thread nD τ).loc main_arg1))) :=
  (W2_of_ne m ρ c main_v11 (by decide)).trans (V1_v11 m ρ c)

theorem V3_v38 (c : Dev nD) : V3 m ρ c main_v38
    = mean128 (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
        (srcVec (m ((c.tc : Thread nD τ).loc main_arg1))) (dstVec (m ((c.tc : Thread nD τ).loc main_arg1))) (invDeg (dstVec (m ((c.tc : Thread nD τ).loc main_arg1)))) := by
  have h : V3 m ρ c main_v38 = mean128 (W2 m ρ c (Proc.devRef .tc main_v25)) (W2 m ρ c (Proc.devRef .tc main_v1))
      (W2 m ρ c (Proc.devRef .tc main_v3)) (W2 m ρ c (Proc.devRef .tc main_v11)) := by
    show StableHlo.after hostOps1 (W2 m ρ c) (Proc.devRef .tc main_v38) = _
    after_results_simp <;> rfl
  rw [h, W2_v25 m ρ c, W2_v1 m ρ c, W2_v3 m ρ c, W2_v11 m ρ c]

/-- The argument arrays region 1 reads are as launched. -/
theorem V3_arg6 (c : Dev nD) : V3 m ρ c main_arg6 = m ((c.tc : Thread nD τ).loc main_arg6) := by
  have h3 : V3 m ρ c main_arg6 = W2 m ρ c (Proc.devRef .tc main_arg6) := by
    show StableHlo.after hostOps1 (W2 m ρ c) (Proc.devRef .tc main_arg6) = _
    after_results_simp <;> rfl
  have h2 : W2 m ρ c (Proc.devRef .tc main_arg6) = W1 m ρ c (Proc.devRef .tc main_arg6) :=
    W2_of_ne m ρ c main_arg6 (by decide)
  have h1 : W1 m ρ c (Proc.devRef .tc main_arg6) = m ((c.tc : Thread nD τ).loc main_arg6) := by
    show StableHlo.after hostOps0 (W0 m ρ c) (Proc.devRef .tc main_arg6) = _
    after_results_simp <;> rfl
  exact h3.trans (h2.trans h1)
theorem V3_arg7 (c : Dev nD) : V3 m ρ c main_arg7 = m ((c.tc : Thread nD τ).loc main_arg7) := by
  have h3 : V3 m ρ c main_arg7 = W2 m ρ c (Proc.devRef .tc main_arg7) := by
    show StableHlo.after hostOps1 (W2 m ρ c) (Proc.devRef .tc main_arg7) = _
    after_results_simp <;> rfl
  have h2 : W2 m ρ c (Proc.devRef .tc main_arg7) = W1 m ρ c (Proc.devRef .tc main_arg7) :=
    W2_of_ne m ρ c main_arg7 (by decide)
  have h1 : W1 m ρ c (Proc.devRef .tc main_arg7) = m ((c.tc : Thread nD τ).loc main_arg7) := by
    show StableHlo.after hostOps0 (W0 m ρ c) (Proc.devRef .tc main_arg7) = _
    after_results_simp <;> rfl
  exact h3.trans (h2.trans h1)
theorem V3_arg8 (c : Dev nD) : V3 m ρ c main_arg8 = m ((c.tc : Thread nD τ).loc main_arg8) := by
  have h3 : V3 m ρ c main_arg8 = W2 m ρ c (Proc.devRef .tc main_arg8) := by
    show StableHlo.after hostOps1 (W2 m ρ c) (Proc.devRef .tc main_arg8) = _
    after_results_simp <;> rfl
  have h2 : W2 m ρ c (Proc.devRef .tc main_arg8) = W1 m ρ c (Proc.devRef .tc main_arg8) :=
    W2_of_ne m ρ c main_arg8 (by decide)
  have h1 : W1 m ρ c (Proc.devRef .tc main_arg8) = m ((c.tc : Thread nD τ).loc main_arg8) := by
    show StableHlo.after hostOps0 (W0 m ρ c) (Proc.devRef .tc main_arg8) = _
    after_results_simp <;> rfl
  exact h3.trans (h2.trans h1)
theorem V3_arg9 (c : Dev nD) : V3 m ρ c main_arg9 = m ((c.tc : Thread nD τ).loc main_arg9) := by
  have h3 : V3 m ρ c main_arg9 = W2 m ρ c (Proc.devRef .tc main_arg9) := by
    show StableHlo.after hostOps1 (W2 m ρ c) (Proc.devRef .tc main_arg9) = _
    after_results_simp <;> rfl
  have h2 : W2 m ρ c (Proc.devRef .tc main_arg9) = W1 m ρ c (Proc.devRef .tc main_arg9) :=
    W2_of_ne m ρ c main_arg9 (by decide)
  have h1 : W1 m ρ c (Proc.devRef .tc main_arg9) = m ((c.tc : Thread nD τ).loc main_arg9) := by
    show StableHlo.after hostOps0 (W0 m ρ c) (Proc.devRef .tc main_arg9) = _
    after_results_simp <;> rfl
  exact h3.trans (h2.trans h1)
theorem V3_arg10 (c : Dev nD) : V3 m ρ c main_arg10 = m ((c.tc : Thread nD τ).loc main_arg10) := by
  have h3 : V3 m ρ c main_arg10 = W2 m ρ c (Proc.devRef .tc main_arg10) := by
    show StableHlo.after hostOps1 (W2 m ρ c) (Proc.devRef .tc main_arg10) = _
    after_results_simp <;> rfl
  have h2 : W2 m ρ c (Proc.devRef .tc main_arg10) = W1 m ρ c (Proc.devRef .tc main_arg10) :=
    W2_of_ne m ρ c main_arg10 (by decide)
  have h1 : W1 m ρ c (Proc.devRef .tc main_arg10) = m ((c.tc : Thread nD τ).loc main_arg10) := by
    show StableHlo.after hostOps0 (W0 m ρ c) (Proc.devRef .tc main_arg10) = _
    after_results_simp <;> rfl
  exact h3.trans (h2.trans h1)
theorem V3_arg11 (c : Dev nD) : V3 m ρ c main_arg11 = m ((c.tc : Thread nD τ).loc main_arg11) := by
  have h3 : V3 m ρ c main_arg11 = W2 m ρ c (Proc.devRef .tc main_arg11) := by
    show StableHlo.after hostOps1 (W2 m ρ c) (Proc.devRef .tc main_arg11) = _
    after_results_simp <;> rfl
  have h2 : W2 m ρ c (Proc.devRef .tc main_arg11) = W1 m ρ c (Proc.devRef .tc main_arg11) :=
    W2_of_ne m ρ c main_arg11 (by decide)
  have h1 : W1 m ρ c (Proc.devRef .tc main_arg11) = m ((c.tc : Thread nD τ).loc main_arg11) := by
    show StableHlo.after hostOps0 (W0 m ρ c) (Proc.devRef .tc main_arg11) = _
    after_results_simp <;> rfl
  exact h3.trans (h2.trans h1)

/-! ## The result array -/

/-- Region 1 leaves the program's result in the result array. -/
theorem result_eq (c : Dev nD) : W4 m ρ c (Proc.devRef .tc main_v39)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W4_arr m ρ c 8).trans ((Cert.KernelIdeal.Blocks.final1 (V3 m ρ) c).trans ?_)
  show proj (A := 100000) (K := 128) (C := 64)
    (sage (A := 100000) (K := 128) (C := 128) (V3 m ρ c main_v25) (V3 m ρ c main_v38) (V3 m ρ c main_arg6) (V3 m ρ c main_arg7)
      (V3 m ρ c main_arg8) (V3 m ρ c main_arg9)) (V3 m ρ c main_arg10) (V3 m ρ c main_arg11) = _
  rw [V3_v25 m ρ c, V3_v38 m ρ c, V3_arg6 m ρ c, V3_arg7 m ρ c, V3_arg8 m ρ c, V3_arg9 m ρ c, V3_arg10 m ρ c, V3_arg11 m ρ c]
  rfl

end Cert.KernelIdeal.HostTerms

end
-- ==== Proof.RefTerm.lean ====
/-
  The idealized reference's result as one function of its arguments.

  The reference applies the same graph layer twice and then a projection. In each layer it sums, for every node, the
  feature rows of its incoming edges' sources (a gather by source, a scatter-add by destination), divides each row of
  sums by the node's in-degree raised to at least one, and feeds the node's own row and that mean through
  max(((x·wsᵀ + bs) + n·wnᵀ) + bn, 0). Its run's result term is, operation for operation, the composition written
  here; each spelled layer is then the whole-array layer function, and so is the projection. The gather and the
  scatter-add are carried as they stand.
-/
import proofs.«161688_j56075093017243_1_alg».proof.Proof.Gen.ReferenceIdeal.Run
import proofs.«161688_j56075093017243_1_alg».proof.Proof.LibSageLayer

set_option maxRecDepth 16384

noncomputable section

namespace Cert.ReferenceIdeal.HostTerms

open Cert.ReferenceIdeal Cert.ReferenceIdeal.Gen Cert.ReferenceIdeal.Value
open Idealize.ShloMosaic Idealize.ShloMosaic.TcCoe Idealize.SL.Sem Idealize.ShloMosaic.StableHlo
open Cert.Lib.SageLayer

/-- A float array and a 32-bit integer array of a shape, at the ideal values. -/
abbrev F32 (S : Shape) : Type := FVec Ideal S .f32
abbrev I32 (S : Shape) : Type := IVec S 32

/-- Row 0 of the edge list: each edge's source node. -/
def srcVec (ei : I32 S2x1000000) : I32 S1000000 :=
  shapeCast _ (extractStridedSlice S1x1000000 ![0, 0] ei slices_S2x1000000_S1x1000000_0_0) shapeCasts_S1x1000000_S1000000

/-- Row 1 of the edge list: each edge's destination node. -/
def dstVec (ei : I32 S2x1000000) : I32 S1000000 :=
  shapeCast _ (extractStridedSlice S1x1000000 ![1, 0] ei slices_S2x1000000_S1x1000000_1_0) shapeCasts_S1x1000000_S1000000

/-- The source nodes as a column of gather indices, a negative index wrapped by the node count. -/
def srcCol (s : I32 S1000000) : I32 S1000000x1 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- The destination nodes as a column of scatter indices. -/
def dstCol (d : I32 S1000000) : I32 S1000000x1 := broadcastInDim S1000000x1 ![0] bcast_S1000000_S1000000x1_0 d

/-- For every node, the sum of the 64-wide feature rows of the sources of its incoming edges. -/
def nbrSum64 (x : F32 S100000x64) (s d : I32 S1000000) : F32 S100000x64 :=
  Host.scatterAdd (F := Ideal) scatter_S100000x64_S1000000x1_S1000000x64_1_0_0_1
    (broadcastInDim S100000x64 ![] bcast_S_S100000x64 (constant (F := Ideal) S_ .f32 0x00000000#32)) (dstCol d)
    (Host.gather gather_S100000x64_S1000000x1_S1000000x64_1_0_n_n_0_1_164 x (srcCol s))

/-- The same for 128-wide rows. -/
def nbrSum128 (h : F32 S100000x128) (s d : I32 S1000000) : F32 S100000x128 :=
  Host.scatterAdd (F := Ideal) scatter_S100000x128_S1000000x1_S1000000x128_1_0_0_1
    (broadcastInDim S100000x128 ![] bcast_S_S100000x128 (constant (F := Ideal) S_ .f32 0x00000000#32)) (dstCol d)
    (Host.gather gather_S100000x128_S1000000x1_S1000000x128_1_0_n_n_0_1_1128 h (srcCol s))

/-- Every node's in-degree (a one added per incoming edge), raised to at least one. -/
def degMax (d : I32 S1000000) : F32 S100000 :=
  maximumf (F := Ideal)
    (Host.scatterAdd (F := Ideal) scatter_S100000_S1000000x1_S1000000_n_0_0_1
      (broadcastInDim S100000 ![] bcast_S_S100000 (constant (F := Ideal) S_ .f32 0x00000000#32)) (dstCol d)
      (broadcastInDim S1000000 ![] bcast_S_S1000000 (constant (F := Ideal) S_ .f32 0x3F800000#32)))
    (broadcastInDim S100000 ![] bcast_S_S100000 (constant (F := Ideal) S_ .f32 0x3F800000#32))

/-- The neighbour mean as the reference computes it: each row of sums divided by its node's degree. -/
def mean64 (x : F32 S100000x64) (s d : I32 S1000000) : F32 S100000x64 :=
  Host.divf (F := Ideal) (nbrSum64 x s d)
    (broadcastInDim S100000x64 ![0, 1] bcast_S100000x1_S100000x64_0_1 (broadcastInDim S100000x1 ![0] bcast_S100000_S100000x1_0 (degMax d)))

def mean128 (h : F32 S100000x128) (s d : I32 S1000000) : F32 S100000x128 :=
  Host.divf (F := Ideal) (nbrSum128 h s d)
    (broadcastInDim S100000x128 ![0, 1] bcast_S100000x1_S100000x128_0_1 (broadcastInDim S100000x1 ![0] bcast_S100000_S100000x1_0 (degMax d)))

/-- The first layer as the host spells it: two dot_generals against transposed weights, the biases through two
    broadcast_in_dim each, the rectifier against a broadcast zero. -/
def hostLayer1 (x n : F32 S100000x64) (ws : F32 S128x64) (bs : F32 S128) (wn : F32 S128x64) (bn : F32 S128) : F32 S100000x128 :=
  maximumf (F := Ideal)
    (addf
      (addf
        (addf
          (Host.dotGeneral dot_S100000x64_S64x128_S100000x128_1_0_0_1_n_n none x (transpose S64x128 [1, 0] ws transposes_S128x64_S64x128_1_0))
          (broadcastInDim S100000x128 ![0, 1] bcast_S1x128_S100000x128_0_1 (broadcastInDim S1x128 ![1] bcast_S128_S1x128_1 bs)))
        (Host.dotGeneral dot_S100000x64_S64x128_S100000x128_1_0_0_1_n_n none n (transpose S64x128 [1, 0] wn transposes_S128x64_S64x128_1_0)))
      (broadcastInDim S100000x128 ![0, 1] bcast_S1x128_S100000x128_0_1 (broadcastInDim S1x128 ![1] bcast_S128_S1x128_1 bn)))
    (broadcastInDim S100000x128 ![] bcast_S_S100000x128 (constant (F := Ideal) S_ .f32 0x00000000#32))

/-- The second layer, 128 features wide on both sides. -/
def hostLayer2 (h n : F32 S100000x128) (ws : F32 S128x128) (bs : F32 S128) (wn : F32 S128x128) (bn : F32 S128) : F32 S100000x128 :=
  maximumf (F := Ideal)
    (addf
      (addf
        (addf
          (Host.dotGeneral dot_S100000x128_S128x128_S100000x128_1_0_0_1_n_n none h (transpose S128x128 [1, 0] ws transposes_S128x128_S128x128_1_0))
          (broadcastInDim S100000x128 ![0, 1] bcast_S1x128_S100000x128_0_1 (broadcastInDim S1x128 ![1] bcast_S128_S1x128_1 bs)))
        (Host.dotGeneral dot_S100000x128_S128x128_S100000x128_1_0_0_1_n_n none n (transpose S128x128 [1, 0] wn transposes_S128x128_S128x128_1_0)))
      (broadcastInDim S100000x128 ![0, 1] bcast_S1x128_S100000x128_0_1 (broadcastInDim S1x128 ![1] bcast_S128_S1x128_1 bn)))
    (broadcastInDim S100000x128 ![] bcast_S_S100000x128 (constant (F := Ideal) S_ .f32 0x00000000#32))

/-- The output projection as the host spells it. -/
def hostProj (h : F32 S100000x128) (wo : F32 S64x128) (bo : F32 S64) : F32 S100000x64 :=
  addf (F := Ideal)
    (Host.dotGeneral dot_S100000x128_S128x64_S100000x64_1_0_0_1_n_n none h (transpose S128x64 [1, 0] wo transposes_S64x128_S128x64_1_0))
    (broadcastInDim S100000x64 ![0, 1] bcast_S1x64_S100000x64_0_1 (broadcastInDim S1x64 ![1] bcast_S64_S1x64_1 bo))

/-- The first layer's output: the node features and their neighbour means through the first layer. -/
def hidden1 (x : F32 S100000x64) (ei : I32 S2x1000000) (ws1 : F32 S128x64) (bs1 : F32 S128) (wn1 : F32 S128x64) (bn1 : F32 S128) :
    F32 S100000x128 :=
  hostLayer1 x (mean64 x (srcVec ei) (dstVec ei)) ws1 bs1 wn1 bn1

/-- The reference's result: the second layer of the first layer's output and of its neighbour means, projected. -/
def refOut (x : F32 S100000x64) (ei : I32 S2x1000000) (ws1 : F32 S128x64) (bs1 : F32 S128) (wn1 : F32 S128x64) (bn1 : F32 S128)
    (ws2 : F32 S128x128) (bs2 : F32 S128) (wn2 : F32 S128x128) (bn2 : F32 S128) (wo : F32 S64x128) (bo : F32 S64) : F32 S100000x64 :=
  hostProj
    (hostLayer2 (hidden1 x ei ws1 bs1 wn1 bn1) (mean128 (hidden1 x ei ws1 bs1 wn1 bn1) (srcVec ei) (dstVec ei)) ws2 bs2 wn2 bn2)
    wo bo

/-- The run's result term is that composition, operation for operation. -/
theorem res_eq (m : (ℓ : Loc nD τ sig) → Buf (Elt Ideal) ℓ) (c : Dev nD) :
    res_main_v70 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold res_main_v70
  rfl

/-! ## Each spelled layer is the whole-array layer function -/

theorem hostLayer1_eq (x n : F32 S100000x64) (ws : F32 S128x64) (bs : F32 S128) (wn : F32 S128x64) (bn : F32 S128) :
    hostLayer1 x n ws bs wn bn = sage (A := 100000) (K := 64) (C := 128) x n ws bs wn bn := by
  unfold hostLayer1
  exact host_sage (A := 100000) (K := 64) (C := 128) x n ws wn bs bn _ _ _ _ none

theorem hostLayer2_eq (h n : F32 S100000x128) (ws : F32 S128x128) (bs : F32 S128) (wn : F32 S128x128) (bn : F32 S128) :
    hostLayer2 h n ws bs wn bn = sage (A := 100000) (K := 128) (C := 128) h n ws bs wn bn := by
  unfold hostLayer2
  exact host_sage (A := 100000) (K := 128) (C := 128) h n ws wn bs bn _ _ _ _ none

theorem hostProj_eq (h : F32 S100000x128) (wo : F32 S64x128) (bo : F32 S64) :
    hostProj h wo bo = proj (A := 100000) (K := 128) (C := 64) h wo bo := by
  unfold hostProj
  exact host_proj (A := 100000) (K := 128) (C := 64) h wo bo _ _ _ none

end Cert.ReferenceIdeal.HostTerms

end
-- ==== Proof.LibRecipMean.lean ====
/-
  A mean taken by multiplying with a reciprocal is the mean taken by dividing (a general lemma: nothing here depends on
  a program; any sizes).

  For a matrix S : [A, B] of row sums and a vector g : [A] of counts, let d = max(g, 1) entry by entry. One program
  forms the vector 1 / d first and multiplies row a of S by its entry a; another divides row a of S by d[a]. On the
  extended reals the quotient by a nonzero d is the product with d⁻¹ whatever the numerator (the infinities included),
  and d ≥ 1 is never zero, so  y · (1 · d⁻¹) = y · d⁻¹  and the two arrays are equal, with no condition on S or g.
  Both are read here in the host's spelling: the vector broadcast to a column and the column across the row, the ones
  broadcast scalars.
-/
import Idealize.ShloMosaic.Lib.ValueIdx
import Idealize.ShloMosaic.Lib.IdealHost
import Idealize.ShloMosaic.Lib.Pipeline.Value
import Idealize.ShloMosaic.PureOps.Ideal.Laws

noncomputable section

namespace Cert.Lib.RecipMean

open Idealize.ShloMosaic Idealize.ShloMosaic.ValueIdx

/-- y · (1 / max(g, 1)) = y / max(g, 1) on the extended reals: the divisor is at least one, so it is not zero, and the
    quotient by it is the product with its inverse on both sides. -/
theorem mul_recip_max (y g : EReal) : y * Ideal.div 1 (max g 1) = Ideal.div y (max g 1) := by
  have hpos : (0 : EReal) < max g 1 := lt_of_lt_of_le zero_lt_one (le_max_right g 1)
  have hne : max g 1 ≠ 0 := ne_of_gt hpos
  unfold Ideal.div
  rw [if_neg hne, if_neg hne, one_mul]

variable {A B : Nat}

/-- A vector broadcast to a column and the column across the row, at (a, b), is the vector at a. -/
theorem colBcast_apply (v : (⟨1, ![A]⟩ : Shape).Idx → EReal)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h2
        (broadcastInDim ⟨2, ![A, 1]⟩ (![0] : Fin 1 → Fin 2) h1 v) (ix2 a b) = v (ix1 a) := by
  refine (broadcastInDim_apply (![0, 1] : Fin 2 → Fin 2) h2 _ (ix2 a b) (ix2 a (0 : Fin 1)) ?_).trans
    (broadcastInDim_apply (![0] : Fin 1 → Fin 2) h1 v (ix2 a (0 : Fin 1)) (ix1 a) ?_)
  · intro d
    match d with
    | ⟨0, _⟩ =>
      show a.val = if A = 1 then 0 else a.val
      split
      · have := a.isLt; omega
      · rfl
    | ⟨1, _⟩ => simp
  · intro d
    match d with
    | ⟨0, _⟩ =>
      show a.val = if A = 1 then 0 else a.val
      split
      · have := a.isLt; omega
      · rfl

/-- The rows of S times the reciprocals of max(g, 1) are the rows of S divided by max(g, 1). -/
theorem recipMean_eq (S : FVec Ideal ⟨2, ![A, B]⟩ .f32) (g : FVec Ideal ⟨1, ![A]⟩ .f32)
    (h0 : (⟨0, ![]⟩ : Shape).BroadcastsInDim ⟨1, ![A]⟩ (![] : Fin 0 → Fin 1))
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2)) :
    mulf S
      (broadcastInDim ⟨2, ![A, B]⟩ (![0, 1] : Fin 2 → Fin 2) h2
        (broadcastInDim ⟨2, ![A, 1]⟩ (![0] : Fin 1 → Fin 2) h1
          (Host.divf (broadcastInDim ⟨1, ![A]⟩ (![] : Fin 0 → Fin 1) h0 (constant (F := Ideal) ⟨0, ![]⟩ .f32 0x3F800000#32))
            (maximumf g (broadcastInDim ⟨1, ![A]⟩ (![] : Fin 0 → Fin 1) h0 (constant (F := Ideal) ⟨0, ![]⟩ .f32 0x3F800000#32))))))
    = Host.divf S
      (broadcastInDim ⟨2, ![A, B]⟩ (![0, 1] : Fin 2 → Fin 2) h2
        (broadcastInDim ⟨2, ![A, 1]⟩ (![0] : Fin 1 → Fin 2) h1
          (maximumf g (broadcastInDim ⟨1, ![A]⟩ (![] : Fin 0 → Fin 1) h0 (constant (F := Ideal) ⟨0, ![]⟩ .f32 0x3F800000#32))))) := by
  funext i
  obtain ⟨a, b, rfl⟩ : ∃ (a : Fin A) (b : Fin B), i = ix2 a b := ⟨i 0, i 1, eq_ix2 i⟩
  rw [mulf_apply, hostDivf_apply, colBcast_apply, colBcast_apply, hostDivf_apply, maximumf_apply,
    broadcastInDim_scalar_apply, constant_apply, Ideal.ofBits_one_f32]
  exact mul_recip_max _ _

end Cert.Lib.RecipMean

end
-- ==== Proof.Bridge.lean ====
/-
  The two programs compute the same function of their arguments.

  They differ in one place only. The kernel program forms the reciprocal of every node's degree (raised to at least one)
  once and multiplies each row of neighbour sums by it; the reference divides each row of neighbour sums by that degree.
  On the extended reals these agree for any sums and any degree, because the divisor is at least one. The gather by
  source, the scatter-add by destination, the degree count and the index vectors are the same operations of the same
  operands in both programs, and each layer and the projection are the same whole-array functions, so the results agree.
-/
import proofs.«161688_j56075093017243_1_alg».proof.Proof.KernelHost
import proofs.«161688_j56075093017243_1_alg».proof.Proof.RefTerm
import proofs.«161688_j56075093017243_1_alg».proof.Proof.LibRecipMean

set_option maxRecDepth 16384

noncomputable section

namespace Cert.Bridge

open Idealize.ShloMosaic Idealize.ShloMosaic.ValueIdx
open Cert.Lib.SageLayer Cert.Lib.RecipMean

/-- Sums times reciprocal degrees are sums divided by degrees, 64 features wide. -/
theorem mean64_eq (x : Cert.KernelIdeal.HostTerms.F32 Cert.KernelIdeal.S100000x64) (s d : Cert.KernelIdeal.HostTerms.I32 Cert.KernelIdeal.S1000000) :
    Cert.KernelIdeal.HostTerms.mean64 x s d (Cert.KernelIdeal.HostTerms.invDeg d) = Cert.ReferenceIdeal.HostTerms.mean64 x s d := by
  unfold Cert.KernelIdeal.HostTerms.mean64 Cert.KernelIdeal.HostTerms.invDeg Cert.KernelIdeal.HostTerms.degMax
  refine (recipMean_eq (A := 100000) (B := 64) _ _ _ _ _).trans ?_
  rfl

/-- The same, 128 features wide. -/
theorem mean128_eq (h : Cert.KernelIdeal.HostTerms.F32 Cert.KernelIdeal.S100000x128) (s d : Cert.KernelIdeal.HostTerms.I32 Cert.KernelIdeal.S1000000) :
    Cert.KernelIdeal.HostTerms.mean128 h s d (Cert.KernelIdeal.HostTerms.invDeg d) = Cert.ReferenceIdeal.HostTerms.mean128 h s d := by
  unfold Cert.KernelIdeal.HostTerms.mean128 Cert.KernelIdeal.HostTerms.invDeg Cert.KernelIdeal.HostTerms.degMax
  refine (recipMean_eq (A := 100000) (B := 128) _ _ _ _ _).trans ?_
  rfl

/-- The edge list's rows are sliced the same way by both programs. -/
theorem srcVec_eq (ei : Cert.KernelIdeal.HostTerms.I32 Cert.KernelIdeal.S2x1000000) : Cert.KernelIdeal.HostTerms.srcVec ei = Cert.ReferenceIdeal.HostTerms.srcVec ei := rfl
theorem dstVec_eq (ei : Cert.KernelIdeal.HostTerms.I32 Cert.KernelIdeal.S2x1000000) : Cert.KernelIdeal.HostTerms.dstVec ei = Cert.ReferenceIdeal.HostTerms.dstVec ei := rfl

/-- The first layer's output is the same array in both programs. -/
theorem hidden1_eq (x : Cert.KernelIdeal.HostTerms.F32 Cert.KernelIdeal.S100000x64) (ei : Cert.KernelIdeal.HostTerms.I32 Cert.KernelIdeal.S2x1000000)
    (ws1 : Cert.KernelIdeal.HostTerms.F32 Cert.KernelIdeal.S128x64) (bs1 : Cert.KernelIdeal.HostTerms.F32 Cert.KernelIdeal.S128)
    (wn1 : Cert.KernelIdeal.HostTerms.F32 Cert.KernelIdeal.S128x64) (bn1 : Cert.KernelIdeal.HostTerms.F32 Cert.KernelIdeal.S128) :
    Cert.KernelIdeal.HostTerms.hidden1 x ei ws1 bs1 wn1 bn1 = Cert.ReferenceIdeal.HostTerms.hidden1 x ei ws1 bs1 wn1 bn1 := by
  unfold Cert.KernelIdeal.HostTerms.hidden1 Cert.ReferenceIdeal.HostTerms.hidden1
  rw [Cert.ReferenceIdeal.HostTerms.hostLayer1_eq, mean64_eq, srcVec_eq, dstVec_eq]

/-- The two programs' results are the same array. -/
theorem out_eq (x : Cert.KernelIdeal.HostTerms.F32 Cert.KernelIdeal.S100000x64) (ei : Cert.KernelIdeal.HostTerms.I32 Cert.KernelIdeal.S2x1000000)
    (ws1 : Cert.KernelIdeal.HostTerms.F32 Cert.KernelIdeal.S128x64) (bs1 : Cert.KernelIdeal.HostTerms.F32 Cert.KernelIdeal.S128)
    (wn1 : Cert.KernelIdeal.HostTerms.F32 Cert.KernelIdeal.S128x64) (bn1 : Cert.KernelIdeal.HostTerms.F32 Cert.KernelIdeal.S128)
    (ws2 : Cert.KernelIdeal.HostTerms.F32 Cert.KernelIdeal.S128x128) (bs2 : Cert.KernelIdeal.HostTerms.F32 Cert.KernelIdeal.S128)
    (wn2 : Cert.KernelIdeal.HostTerms.F32 Cert.KernelIdeal.S128x128) (bn2 : Cert.KernelIdeal.HostTerms.F32 Cert.KernelIdeal.S128)
    (wo : Cert.KernelIdeal.HostTerms.F32 Cert.KernelIdeal.S64x128) (bo : Cert.KernelIdeal.HostTerms.F32 Cert.KernelIdeal.S64) :
    Cert.KernelIdeal.HostTerms.kernelOut x ei ws1 bs1 wn1 bn1 ws2 bs2 wn2 bn2 wo bo = Cert.ReferenceIdeal.HostTerms.refOut x ei ws1 bs1 wn1 bn1 ws2 bs2 wn2 bn2 wo bo := by
  unfold Cert.KernelIdeal.HostTerms.kernelOut Cert.ReferenceIdeal.HostTerms.refOut
  rw [Cert.ReferenceIdeal.HostTerms.hostProj_eq, Cert.ReferenceIdeal.HostTerms.hostLayer2_eq, hidden1_eq, mean128_eq, srcVec_eq, dstVec_eq]

end Cert.Bridge

end
-- ==== Proof.lean ====
/-
  Two GraphSAGE layers and an output projection, as a pair of tiled kernels against a plain reference.

  Both programs take node features x : [100000, 64], an edge list [2, 1000000] and the weights and biases of two
  layers and a projection. A layer feeds every node's own row and the mean of its in-neighbours' rows through
  max(((x·wsᵀ + bs) + n·wnᵀ) + bn, 0); the projection is h·woᵀ + bo. The kernel program computes the neighbour means
  on the host (a gather by source node, a scatter-add by destination node, a product with the reciprocal in-degree),
  runs the dense part of the first layer as a kernel over 20 blocks of 5000 rows, repeats the host aggregation on that
  kernel's output, and runs the second layer together with the projection as a second kernel over the same 20 blocks.
  The reference does everything on the host and divides by the in-degree instead of multiplying by its reciprocal.

  At the ideal values each kernel's output array is the layer function of the whole arrays it found (a row of the
  output reads one row of the row-blocked inputs, and the blocks tile the rows), the host terms around the kernels are
  the same operations as the reference's, and product-with-reciprocal and quotient agree on the extended reals because
  the divisor is at least one. So the two result arrays are one function of the arguments.
-/
import proofs.«161688_j56075093017243_1_alg».proof.Defs
import proofs.«161688_j56075093017243_1_alg».proof.Proof.Gen.Kernel
import proofs.«161688_j56075093017243_1_alg».proof.Proof.Gen.Kernel.Frame
import proofs.«161688_j56075093017243_1_alg».proof.Proof.Gen.KernelIdeal
import proofs.«161688_j56075093017243_1_alg».proof.Proof.Gen.KernelIdeal.Frame
import proofs.«161688_j56075093017243_1_alg».proof.Proof.Gen.ReferenceIdeal
import proofs.«161688_j56075093017243_1_alg».proof.Proof.Gen.ReferenceIdeal.Run
import proofs.«161688_j56075093017243_1_alg».proof.Proof.Gen.Pre_finite_inputs
import proofs.«161688_j56075093017243_1_alg».proof.Proof.KernelRun
import proofs.«161688_j56075093017243_1_alg».proof.Proof.KernelHost
import proofs.«161688_j56075093017243_1_alg».proof.Proof.RefTerm
import proofs.«161688_j56075093017243_1_alg».proof.Proof.Bridge
import Idealize.ShloMosaic.Adequacy
import Idealize.ShloMosaic.Init

noncomputable section

namespace Cert.Proof

open Idealize.ShloMosaic Idealize.SL.Sem

/-- The word-level kernel program runs to the end without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs, from memories that agree on the arguments, end with the same result array: the
    kernel program's is the projected second layer of the arguments with reciprocal-degree means, the reference's the
    same with quotient means, and those are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HostTerms.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun _ h c => ⟨(h c).1.trans ?_, (h c).2⟩)
      (Cert.KernelIdeal.Run.run_named (F := Ideal) m ρ)
    exact Cert.KernelIdeal.HostTerms.result_eq m ρ c
  · refine (θ_run Cert.ReferenceIdeal.defs _ _).mono (fun _ h c => ⟨(h c).1.trans ?_, (h c).2⟩)
      (Cert.ReferenceIdeal.Value.run (F := Ideal) m' ρ')
    rw [Cert.ReferenceIdeal.HostTerms.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.Bridge.out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
